-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S1 : Shape := ⟨1, ![1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S4096 .f32) (main_arg5 : FVec F S1 .f32) (main_arg6 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4x2048x4096 .f32) (main_arg1 : FVec F S4096x4096 .f32) (main_arg2 : FVec F S16x4096 .f32) (main_arg3 : FVec F S4096x16 .f32) (main_arg4 : FVec F S4096 .f32) (main_arg5 : FVec F S1 .f32) (main_arg6 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_arg5 main_arg6 main_v13 main_v16
-- ==== Kernel.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S1 : Shape := ⟨1, ![1]⟩
abbrev S8192x4096 : Shape := ⟨2, ![8192, 4096]⟩
abbrev S4096x1 : Shape := ⟨2, ![4096, 1]⟩
abbrev S1x1 : Shape := ⟨2, ![1, 1]⟩
abbrev S1x4096 : Shape := ⟨2, ![1, 4096]⟩
abbrev S512x512 : Shape := ⟨2, ![512, 512]⟩
abbrev S1024x512 : Shape := ⟨2, ![1024, 512]⟩
abbrev S16x512 : Shape := ⟨2, ![16, 512]⟩
abbrev S1024x16 : Shape := ⟨2, ![1024, 16]⟩
abbrev S1024x1 : Shape := ⟨2, ![1024, 1]⟩
abbrev S1x1024 : Shape := ⟨2, ![1, 1024]⟩
abbrev S512x1024 : Shape := ⟨2, ![512, 1024]⟩

abbrev nBuf : Space → Nat
  | .hbm => 13
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S1, .f32⟩
  | .hbm, ⟨6, _⟩ => ⟨S4096, .f32⟩
  | .hbm, ⟨7, _⟩ => ⟨S8192x4096, .f32⟩
  | .hbm, ⟨8, _⟩ => ⟨S4096x1, .f32⟩
  | .hbm, ⟨9, _⟩ => ⟨S1x1, .f32⟩
  | .hbm, ⟨10, _⟩ => ⟨S1x4096, .f32⟩
  | .hbm, ⟨11, _⟩ => ⟨S8192x4096, .f32⟩
  | .hbm, ⟨12, _⟩ => ⟨S4x2048x4096, .f32⟩
  | .local _ .vmem, ⟨0, _⟩ => ⟨S512x512, .f32⟩
  | .local _ .vmem, ⟨1, _⟩ => ⟨S512x512, .f32⟩
  | .local _ .vmem, ⟨2, _⟩ => ⟨S1024x512, .f32⟩
  | .local _ .vmem, ⟨3, _⟩ => ⟨S1024x512, .f32⟩
  | .local _ .vmem, ⟨4, _⟩ => ⟨S16x512, .f32⟩
  | .local _ .vmem, ⟨5, _⟩ => ⟨S16x512, .f32⟩
  | .local _ .vmem, ⟨6, _⟩ => ⟨S1024x16, .f32⟩
  | .local _ .vmem, ⟨7, _⟩ => ⟨S1024x16, .f32⟩
  | .local _ .vmem, ⟨8, _⟩ => ⟨S1024x1, .f32⟩
  | .local _ .vmem, ⟨9, _⟩ => ⟨S1024x1, .f32⟩
  | .local _ .vmem, ⟨10, _⟩ => ⟨S1x1, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32_22 : BitVec 32 := 7#32
  let v54 : BitVec 1 := Scalar.cmpi .eq arg2 c7_i32_22
  let v55 : BitVec 32 := Scalar.extui v54
  let c0_i32_23 : BitVec 32 := 0#32
  let v56 : BitVec 1 := Scalar.cmpi .ne v55 c0_i32_23
  v56

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S4x2048x4096_S8192x4096 : S4x2048x4096.ShapeCasts S8192x4096
  shapeCasts_S4096_S4096x1 : S4096.ShapeCasts S4096x1
  shapeCasts_S1_S1x1 : S1.ShapeCasts S1x1
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x16_S1024x16_0_0 : ∀ a, (![0, 0] : Fin 2 → Nat) a + S1024x16.size a ≤ S1024x16.size a
  h_S1024x16 : 0 < S1024x16.numel
  bitsLt_bf16_f32 : FTy.bits .bf16 < FTy.bits .f32
  inb_S16x512_S16x512_0_0 : ∀ a, (![0, 0] : Fin 2 → Nat) a + S16x512.size a ≤ S16x512.size a
  h_S16x512 : 0 < S16x512.numel
  inb_S1024x512_S1024x512_0_0 : ∀ a, (![0, 0] : Fin 2 → Nat) a + S1024x512.size a ≤ S1024x512.size a
  h_S1024x512 : 0 < S1024x512.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1024x1_S1024x512 : S1024x1.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x1_S512x512 : S1x1.Broadcasts S512x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x4096_S4x2048x4096 : S8192x4096.ShapeCasts S4x2048x4096
  dot_S1024x16_S16x512_S1024x512_1_0_0_1_n_n_wf : DotDims.WF S1024x16 S16x512 S1024x512 [1] [0] [0] [1] [] []
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x4096.size a
  hwx0_0 : ∀ i : grid0.Coords, EltTy.bits .f32 = 32 ∨ (Rect.block (s := S8192x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x4096.size a
  hwx0_2 : ∀ i : grid0.Coords, EltTy.bits .f32 = 32 ∨ (Rect.block (s := S16x4096) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .f32 = 32 ∨ (Rect.block (s := S4096x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x4096.size a
  hwx0_7 : ∀ i : grid0.Coords, EltTy.bits .f32 = 32 ∨ (Rect.block (s := S8192x4096) S512x1024.size (cc0_transform_7 i) (hinb0_7 i)).WholeWords (EltTy.packing .f32)

variable [Facts₀]

def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf
def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S1 : Shape := ⟨1, ![1]⟩
abbrev S_ : Shape := ⟨0, ![]⟩
abbrev S4096x1 : Shape := ⟨2, ![4096, 1]⟩
abbrev S1x1x1 : Shape := ⟨3, ![1, 1, 1]⟩
abbrev S1x1x4096 : Shape := ⟨3, ![1, 1, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S1, .f32⟩
  | .hbm, ⟨6, _⟩ => ⟨S4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S4096x1, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .i32⟩
  | .hbm, ⟨25, _⟩ => ⟨S_, .i32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S1x1x1, .f32⟩
  | .hbm, ⟨35, _⟩ => ⟨S4x2048x4096, .f32⟩
  | .hbm, ⟨36, _⟩ => ⟨S4x2048x4096, .f32⟩
  | .hbm, ⟨37, _⟩ => ⟨S4x2048x4096, .f32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S4x2048x4096, .f32⟩
  | .hbm, ⟨42, _⟩ => ⟨S4x2048x4096, .f32⟩
  | .hbm, ⟨43, _⟩ => ⟨S_, .f32⟩
  | .hbm, ⟨44, _⟩ => ⟨S4x2048x4096, .f32⟩
  | .hbm, ⟨45, _⟩ => ⟨S4x2048x4096, .f32⟩
  | .hbm, ⟨46, _⟩ => ⟨S1x1x1, .f32⟩
  | .hbm, ⟨47, _⟩ => ⟨S4x2048x4096, .f32⟩
  | .hbm, ⟨48, _⟩ => ⟨S4x2048x4096, .f32⟩
  | .hbm, ⟨49, _⟩ => ⟨S4x2048x4096, .f32⟩
  | .hbm, ⟨50, _⟩ => ⟨S1x1x4096, .f32⟩
  | .hbm, ⟨51, _⟩ => ⟨S4x2048x4096, .f32⟩
  | .hbm, ⟨52, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_c_2 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_c_4 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S_S1 : S_.BroadcastsInDim S1 (![] : Fin 0 → Fin S1.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S1_S1x1x1_2 : S1.BroadcastsInDim S1x1x1 (![2] : Fin 1 → Fin S1x1x1.rank)
  bcast_S1x1x1_S4x2048x4096_0_1_2 : S1x1x1.BroadcastsInDim S4x2048x4096 (![0, 1, 2] : Fin 3 → Fin S4x2048x4096.rank)
  bcast_S_S4x2048x4096 : S_.BroadcastsInDim S4x2048x4096 (![] : Fin 0 → Fin S4x2048x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x16_S16x4096_S4096x4096_1_0_0_1_n_n_wf : DotDims.WF S4096x16 S16x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.QuantSpec.lean ====
/-
  The layer both programs compute, written on the extended reals entry by entry.

  A weight W (4096 x 4096) is adapted by a rank-16 product:  M[o,i] = W[o,i] + lam * sum_r B[o,r] * A[r,i].
  Output channel o has the step size  step(ws[o]) = max |ws[o]| eps, the activations one step size step(sa).
  A value v is put on the grid of step s by
      quant v s = min hi (max lo (roundHalfEven (v / s))) * s,
  and the layer is
      Y[b,s,o] = (sum_{i < 4096} quant X[b,s,i] (step sa) * quant M[o,i] (step ws[o])) + bias[o].
  The four constants lam, eps, lo, hi are kept as the words the two programs print; nothing here depends on
  their values, and no entry is assumed finite.

  The one law that joins the two programs is the regrouping of the inner sum by blocks of 512,
      sum_{i < 4096} f i = sum_{k < 8} sum_{j < 512} f (512 k + j),
  which holds in every commutative additive monoid, so in particular on the extended reals with no
  finiteness hypothesis; and a running sum over the first blocks, taken over naturals, is the sum over
  all eight once the eighth is added.
-/
import Idealize.ShloMosaic.PureOps.Ideal
import Idealize.ShloMosaic.Lib.ValueIdx

noncomputable section

open scoped BigOperators

namespace Cert.Qalora

open Idealize.ShloMosaic Idealize.ShloMosaic.ValueIdx

/-- The low-rank update's weight, the word both programs print (the single-precision value nearest 0.01). -/
abbrev lam : EReal := Ideal.ofBits .f32 0x3C23D70A#32
/-- The floor under a step size, the word both programs print (the single-precision value nearest 1e-8). -/
abbrev eps : EReal := Ideal.ofBits .f32 0x322BCC77#32
/-- The lower end of the grid: the integer -8 read as a number. -/
abbrev qlo : EReal := Scalar.sitofp (F := Ideal) .f32 (4294967288#32 : BitVec 32)
/-- The upper end of the grid: the integer 7 read as a number. -/
abbrev qhi : EReal := Scalar.sitofp (F := Ideal) .f32 (7#32 : BitVec 32)

/-- The step size a raw scale gives: its magnitude, kept at least eps. -/
def step (a : EReal) : EReal := max (FloatOps.absf (F := Ideal) (φ := .f32) a) eps

/-- A value put on the sixteen-point grid of step s: divided by the step, rounded to the nearest integer
    with ties to even, kept between lo and hi, and multiplied by the step again. -/
def quant (v s : EReal) : EReal :=
  min qhi (max qlo (Ideal.liftRound Ideal.roundHalfEven (Ideal.div v s))) * s

abbrev ShX : Shape := ⟨3, ![4, 2048, 4096]⟩
abbrev ShW : Shape := ⟨2, ![4096, 4096]⟩
abbrev ShA : Shape := ⟨2, ![16, 4096]⟩
abbrev ShB : Shape := ⟨2, ![4096, 16]⟩
abbrev ShV : Shape := ⟨1, ![4096]⟩
abbrev ShS : Shape := ⟨1, ![1]⟩

section Layer
variable (X : ShX.Idx → EReal) (W : ShW.Idx → EReal) (A : ShA.Idx → EReal) (B : ShB.Idx → EReal)
  (ws : ShV.Idx → EReal) (sa : ShS.Idx → EReal) (bias : ShV.Idx → EReal)

/-- The adapted weight: W plus lam times the rank-16 product of B and A. -/
def merged (o i : Fin 4096) : EReal := W (ix2 o i) + lam * ∑ r : Fin 16, B (ix2 o r) * A (ix2 r i)

/-- The adapted weight on channel o's grid. -/
def wq (o i : Fin 4096) : EReal := quant (merged W A B o i) (step (ws (ix1 o)))

/-- An activation on the activations' grid. -/
def xq (b : Fin 4) (s : Fin 2048) (i : Fin 4096) : EReal := quant (X (ix3 b s i)) (step (sa (ix1 0)))

/-- One entry of the layer's result. -/
def layerAt (b : Fin 4) (s : Fin 2048) (o : Fin 4096) : EReal :=
  (∑ i : Fin 4096, xq X sa b s i * wq W A B ws o i) + bias (ix1 o)

/-- The layer's result array. -/
def layer : ShX.Idx → EReal := fun j => layerAt X W A B ws sa bias (j 0) (j 1) (j 2)

end Layer

/-! ## Regrouping the inner sum by blocks -/

/-- Position j of block k among 4096 positions cut into eight blocks of 512. -/
def blockPos (k : Fin 8) (j : Fin 512) : Fin 4096 :=
  ⟨512 * k.val + j.val, by have := k.isLt; have := j.isLt; omega⟩

theorem blockPos_val (k : Fin 8) (j : Fin 512) : (blockPos k j).val = 512 * k.val + j.val := rfl

/-- A sum over 4096 positions is the sum over the eight blocks of the sums inside each block. -/
theorem sum_by_blocks {M : Type*} [AddCommMonoid M] (f : Fin 4096 → M) :
    ∑ i : Fin 4096, f i = ∑ k : Fin 8, ∑ j : Fin 512, f (blockPos k j) := by
  rw [← Equiv.sum_comp (finProdFinEquiv : Fin 8 × Fin 512 ≃ Fin 4096) f, Fintype.sum_prod_type]
  refine Finset.sum_congr rfl fun k _ => Finset.sum_congr rfl fun j _ => congrArg f (Fin.ext ?_)
  show j.val + 512 * k.val = 512 * k.val + j.val
  omega

/-- A family indexed by the eight blocks, extended by zero to every natural. -/
def onNat {M : Type*} [Zero M] (T : Fin 8 → M) (k : ℕ) : M := if h : k < 8 then T ⟨k, h⟩ else 0

theorem onNat_of_lt {M : Type*} [Zero M] (T : Fin 8 → M) (k : ℕ) (h : k < 8) : onNat T k = T ⟨k, h⟩ := dif_pos h

/-- The running sum over the first eight naturals is the sum over the eight blocks. -/
theorem sum_range_eight {M : Type*} [AddCommMonoid M] (T : Fin 8 → M) :
    ∑ k ∈ Finset.range 8, onNat T k = ∑ k : Fin 8, T k := by
  rw [← Fin.sum_univ_eq_sum_range]
  exact Finset.sum_congr rfl fun k _ => onNat_of_lt T k.val k.isLt

end Cert.Qalora

end
-- ==== Proof.LibLayout.lean ====
/-
  Layout operations of small literal shapes read at an index built from coordinates: a column and a single
  entry broadcast over a matrix, a vector cast to a one-column matrix, and the casts between a rank-3 array and
  the matrix that joins its two leading axes. Each says which entry of the operand the result's entry is.
-/
import Idealize.ShloMosaic.Lib.ValueIdx
import Idealize.ShloMosaic.Lib.Pipeline.Value

noncomputable section

namespace Cert.LibLayout

open Idealize.ShloMosaic Idealize.ShloMosaic.ValueIdx

variable {α : Type}

/-- An [a, 1] array broadcast to [a, b] reads, at (r, c), the operand's one column at r. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A [1, 1] array broadcast to [a, b] reads its one entry everywhere. -/
theorem broadcastTo_11_ab_apply {a b : ℕ} (v : (⟨2, ![1, 1]⟩ : Shape).Idx → α)
    (h : (⟨2, ![1, 1]⟩ : Shape).Broadcasts ⟨2, ![a, b]⟩) (r : Fin a) (c : Fin b) :
    broadcastTo ⟨2, ![a, b]⟩ v h (ix2 r c) = v (ix2 (0 : Fin 1) (0 : Fin 1)) := by
  refine broadcastTo_apply v h (ix2 r c) (ix2 (0 : Fin 1) (0 : Fin 1)) fun ax => ?_
  match ax with
  | ⟨0, _⟩ => rfl
  | ⟨1, _⟩ => rfl

/-- An [a] array cast to [a, 1] reads, at (i, u), the operand at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, b, c] array cast to [n, c] (n = a * b) reads, at (r, k) with r = p * b + q, the operand at (p, q, k). -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- An [n, c] array (n = a * b) cast to [a, b, c] reads, at (p, q, k), the operand at (r, k) with r = p * b + q. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ x h (ix3 p q k) = x (ix2 r k) :=
  shapeCast_apply x h _ _ (by
    rw [Shape.rowMajor_val_three, Shape.rowMajor_val_two]
    show r.val * c + k.val = (p.val * b + q.val) * c + k.val
    rw [hr])

end Cert.LibLayout

end
-- ==== Proof.KBlock.lean ====
/-
  One grid point's arithmetic, read at an entry.

  At a grid point the body holds a 512 x 512 block x0 of the activations, a 1024 x 512 block x1 of the weight, the
  16 x 512 block x2 of A and the 1024 x 16 block x3 of B that meet at that weight block, the 1024 step-size column
  x4, the activations' one step size x5 and a 1 x 1024 piece x6 of the bias. It forms the adapted weight block
  x1 + lam * (x3 times x2) with the whole rank-16 contraction, puts it and the activation block on their grids, and
  adds the product of the two, contracted over the block's 512 inner positions, to what the accumulator held:
      acc'[p,q] = acc[p,q] + sum_{j < 512} quant x0[p,j] (step x5) * quant (x1[q,j] + lam * sum_r x3[q,r] * x2[r,j]) (step x4[q]).
  At the last point of a group it adds the bias piece to the accumulator: out[p,q] = acc'[p,q] + x6[0,q].
  The conversions to the narrower format are the identity on the extended reals.
-/
import proofs.«150886_j67843303408244_1_alg».proof.Proof.QuantSpec
import proofs.«150886_j67843303408244_1_alg».proof.Proof.LibLayout
import proofs.«150886_j67843303408244_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Qalora.Block

open Idealize.ShloMosaic Idealize.ShloMosaic.TcCoe Idealize.ShloMosaic.ValueIdx
open Cert.KernelIdeal Cert.KernelIdeal.Gen Cert.Qalora Cert.LibLayout

/-! ## The pointwise operations the library's index lemmas leave out -/

theorem roundeven_apply {s : Shape} {φ : FTy} (a : FVec Ideal s φ) (i : s.Idx) :
    roundeven a i = Ideal.liftRound Ideal.roundHalfEven (a i) := rfl

theorem absf_apply {s : Shape} {φ : FTy} (a : FVec Ideal s φ) (i : s.Idx) :
    absf a i = FloatOps.absf (F := Ideal) (a i) := rfl

/-! ## The rank-16 product of a block of B and a block of A -/

theorem lr_lhs_0 (i : S1024x512.Idx) (q : dot_S1024x16_S16x512_S1024x512_1_0_0_1_n_n.contr.Idx) :
    (dot_S1024x16_S16x512_S1024x512_1_0_0_1_n_n.lhsIdx i q 0).val = (i 0).val := by
  unfold DotDims.lhsIdx
  rw [dif_neg (show ¬(0 : Fin S1024x16.rank) ∈ dot_S1024x16_S16x512_S1024x512_1_0_0_1_n_n.lhsBatch by decide), dif_pos (show (0 : Fin S1024x16.rank) ∈ dot_S1024x16_S16x512_S1024x512_1_0_0_1_n_n.lhsNonContracting by decide)]
  rfl
theorem lr_lhs_1 (i : S1024x512.Idx) (q : dot_S1024x16_S16x512_S1024x512_1_0_0_1_n_n.contr.Idx) :
    (dot_S1024x16_S16x512_S1024x512_1_0_0_1_n_n.lhsIdx i q 1).val = (q ⟨0, by decide⟩).val :=
  dot_S1024x16_S16x512_S1024x512_1_0_0_1_n_n.lhsIdx_val_of_single rfl i q
theorem lr_rhs_0 (i : S1024x512.Idx) (q : dot_S1024x16_S16x512_S1024x512_1_0_0_1_n_n.contr.Idx) :
    (dot_S1024x16_S16x512_S1024x512_1_0_0_1_n_n.rhsIdx i q 0).val = (q ⟨0, by decide⟩).val :=
  dot_S1024x16_S16x512_S1024x512_1_0_0_1_n_n.rhsIdx_val_of_single rfl i q
theorem lr_rhs_1 (i : S1024x512.Idx) (q : dot_S1024x16_S16x512_S1024x512_1_0_0_1_n_n.contr.Idx) :
    (dot_S1024x16_S16x512_S1024x512_1_0_0_1_n_n.rhsIdx i q 1).val = (i 1).val := by
  unfold DotDims.rhsIdx
  rw [dif_neg (show ¬(1 : Fin S16x512.rank) ∈ dot_S1024x16_S16x512_S1024x512_1_0_0_1_n_n.rhsBatch by decide), dif_pos (show (1 : Fin S16x512.rank) ∈ dot_S1024x16_S16x512_S1024x512_1_0_0_1_n_n.rhsNonContracting by decide)]
  rfl

/-- Into a zero accumulator, the product of a 1024 x 16 and a 16 x 512 block at (q, j) is the sum over the rank. -/
theorem lowrank_apply (l : FVec Ideal S1024x16 .bf16) (r : FVec Ideal S16x512 .bf16) (q : Fin 1024) (j : Fin 512) :
    matmul dot_S1024x16_S16x512_S1024x512_1_0_0_1_n_n none l r (constant S1024x512 .f32 0x00000000#32) (ix2 q j)
      = ∑ k : Fin 16, l (ix2 q k) * r (ix2 k j) := by
  simp only [matmul]
  rw [Ideal.matmul_constant_zero_apply, ← Equiv.sum_comp (contrEquiv1 dot_S1024x16_S16x512_S1024x512_1_0_0_1_n_n 16 rfl rfl).symm]
  refine Finset.sum_congr rfl fun k _ => ?_
  have hk := contrEquiv1_symm_val dot_S1024x16_S16x512_S1024x512_1_0_0_1_n_n 16 rfl rfl k
  have el : dot_S1024x16_S16x512_S1024x512_1_0_0_1_n_n.lhsIdx (ix2 q j) ((contrEquiv1 dot_S1024x16_S16x512_S1024x512_1_0_0_1_n_n 16 rfl rfl).symm k) = ix2 q k := funext fun a => Fin.ext (by
    match a with
    | ⟨0, _⟩ => exact lr_lhs_0 _ _
    | ⟨1, _⟩ => exact (lr_lhs_1 _ _).trans hk)
  have er : dot_S1024x16_S16x512_S1024x512_1_0_0_1_n_n.rhsIdx (ix2 q j) ((contrEquiv1 dot_S1024x16_S16x512_S1024x512_1_0_0_1_n_n 16 rfl rfl).symm k) = ix2 k j := funext fun a => Fin.ext (by
    match a with
    | ⟨0, _⟩ => exact (lr_rhs_0 _ _).trans hk
    | ⟨1, _⟩ => exact lr_rhs_1 _ _)
  rw [el, er]

/-! ## The product of an activation block and a weight block over the block's inner positions -/

theorem ip_lhs_0 (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
theorem ip_lhs_1 (i : S512x1024.Idx) (q : dot_S512x512_S1024x512_S512x1024_1_1_0_0_n_n.contr.Idx) :
    (dot_S512x512_S1024x512_S512x1024_1_1_0_0_n_n.lhsIdx i q 1).val = (q ⟨0, by decide⟩).val :=
  dot_S512x512_S1024x512_S512x1024_1_1_0_0_n_n.lhsIdx_val_of_single rfl i q
theorem ip_rhs_0 (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
theorem ip_rhs_1 (i : S512x1024.Idx) (q : dot_S512x512_S1024x512_S512x1024_1_1_0_0_n_n.contr.Idx) :
    (dot_S512x512_S1024x512_S512x1024_1_1_0_0_n_n.rhsIdx i q 1).val = (q ⟨0, by decide⟩).val :=
  dot_S512x512_S1024x512_S512x1024_1_1_0_0_n_n.rhsIdx_val_of_single rfl i q

/-- Into a zero accumulator, the product of a 512 x 512 block with a 1024 x 512 block, both contracted on their
    second axis, at (p, q) is the sum over the 512 inner positions of row p of the first times row q of the second. -/
theorem inner_apply (l : FVec Ideal S512x512 .bf16) (r : FVec Ideal S1024x512 .bf16) (p : Fin 512) (q : Fin 1024) :
    matmul dot_S512x512_S1024x512_S512x1024_1_1_0_0_n_n none l r (constant S512x1024 .f32 0x00000000#32) (ix2 p q)
      = ∑ k : Fin 512, l (ix2 p k) * r (ix2 q k) := by
  simp only [matmul]
  rw [Ideal.matmul_constant_zero_apply, ← Equiv.sum_comp (contrEquiv1 dot_S512x512_S1024x512_S512x1024_1_1_0_0_n_n 512 rfl rfl).symm]
  refine Finset.sum_congr rfl fun k _ => ?_
  have hk := contrEquiv1_symm_val dot_S512x512_S1024x512_S512x1024_1_1_0_0_n_n 512 rfl rfl k
  have el : dot_S512x512_S1024x512_S512x1024_1_1_0_0_n_n.lhsIdx (ix2 p q) ((contrEquiv1 dot_S512x512_S1024x512_S512x1024_1_1_0_0_n_n 512 rfl rfl).symm k) = ix2 p k := funext fun a => Fin.ext (by
    match a with
    | ⟨0, _⟩ => exact ip_lhs_0 _ _
    | ⟨1, _⟩ => exact (ip_lhs_1 _ _).trans hk)
  have er : dot_S512x512_S1024x512_S512x1024_1_1_0_0_n_n.rhsIdx (ix2 p q) ((contrEquiv1 dot_S512x512_S1024x512_S512x1024_1_1_0_0_n_n 512 rfl rfl).symm k) = ix2 q k := funext fun a => Fin.ext (by
    match a with
    | ⟨0, _⟩ => exact ip_rhs_0 _ _
    | ⟨1, _⟩ => exact (ip_rhs_1 _ _).trans hk)
  rw [el, er]

/-! ## The payloads at an entry -/

/-- The activations' step size, as the body forms it from the one loaded entry. -/
theorem actStep_apply (x5 : Vec Ideal S1x1 .f32) : k0_pay4 (F := Ideal) x5 (ix2 0 0) = step (x5 (ix2 0 0)) := by
  unfold k0_pay4
  simp only [maximumf_apply, absf_apply, broadcast_apply, shapeCast_self]
  rfl

/-- The same step size broadcast over the activation block. -/
theorem actStepBlock_apply (x5 : Vec Ideal S1x1 .f32) (p j : Fin 512) :
    k0_pay7 (F := Ideal) x5 (ix2 p j) = step (x5 (ix2 0 0)) := by
  unfold k0_pay7
  rw [broadcastTo_11_ab_apply]
  exact actStep_apply x5

/-- The activation block as loaded. -/
theorem actBlock_apply (x0 : Vec Ideal S512x512 .f32) (p j : Fin 512) : k0_pay6 (F := Ideal) x0 (ix2 p j) = x0 (ix2 p j) := by
  unfold k0_pay6
  rw [shapeCast_self]

/-- The adapted weight block on its channels' grids. -/
theorem weightBlock_apply (x3 : Vec Ideal S1024x16 .f32) (x2 : Vec Ideal S16x512 .f32) (x1 : Vec Ideal S1024x512 .f32)
    (x4 : Vec Ideal S1024x1 .f32) (q : Fin 1024) (j : Fin 512) :
    k0_pay5 (F := Ideal) x3 x2 x1 x4 (ix2 q j)
      = quant (x1 (ix2 q j) + lam * ∑ k : Fin 16, x3 (ix2 q k) * x2 (ix2 k j)) (step (x4 (ix2 q 0))) := by
  unfold k0_pay5
  simp only [mulf_apply, minimumf_apply, maximumf_apply, divf_apply, addf_apply, broadcast_apply, roundeven_apply,
    broadcastTo_a1_ab_apply, absf_apply, shapeCast_self, lowrank_apply, truncf_apply]
  rfl

/-- One point's update of the accumulator, in the body's own intermediate values. -/
theorem accum_apply (v21 : FVec Ideal S1x1 .f32) (v32 : FVec Ideal S1024x512 .f32) (v34 v35 : FVec Ideal S512x512 .f32)
    (v49 : Vec Ideal S512x1024 .f32) (p : Fin 512) (q : Fin 1024) :
    k0_pay1 (F := Ideal) v21 v32 v34 v35 v49 (ix2 p q)
      = v49 (ix2 p q) + ∑ j : Fin 512,
          (min qhi (max qlo (Ideal.liftRound Ideal.roundHalfEven (Ideal.div (v34 (ix2 p j)) (v35 (ix2 p j))))) * v21 (ix2 0 0))
            * v32 (ix2 q j) := by
  unfold k0_pay1
  simp only [shapeCast_self, addf_apply, inner_apply, truncf_apply, mulf_apply, minimumf_apply, maximumf_apply,
    divf_apply, broadcast_apply, roundeven_apply, broadcastTo_11_ab_apply]

/-- One point's update of the accumulator, from the point's blocks. -/
theorem step_apply (x0 : Vec Ideal S512x512 .f32) (x1 : Vec Ideal S1024x512 .f32) (x2 : Vec Ideal S16x512 .f32)
    (x3 : Vec Ideal S1024x16 .f32) (x4 : Vec Ideal S1024x1 .f32) (x5 : Vec Ideal S1x1 .f32)
    (acc : Vec Ideal S512x1024 .f32) (p : Fin 512) (q : Fin 1024) :
    k0_pay1 (F := Ideal) (k0_pay4 x5) (k0_pay5 x3 x2 x1 x4) (k0_pay6 x0) (k0_pay7 x5) acc (ix2 p q)
      = acc (ix2 p q) + ∑ j : Fin 512, quant (x0 (ix2 p j)) (step (x5 (ix2 0 0)))
          * quant (x1 (ix2 q j) + lam * ∑ k : Fin 16, x3 (ix2 q k) * x2 (ix2 k j)) (step (x4 (ix2 q 0))) := by
  rw [accum_apply]
  simp only [actStep_apply, actStepBlock_apply, actBlock_apply, weightBlock_apply]
  rfl

/-- The accumulator a group starts from holds zero everywhere. -/
theorem zero_apply (p : Fin 512) (q : Fin 1024) : k0_pay3 (F := Ideal) (ix2 p q) = 0 := by
  unfold k0_pay3
  rw [shapeCast_self, broadcast_apply]
  exact Ideal.ofBits_zero_f32

/-- The last point's output block: the accumulator plus the bias piece along the rows. -/
theorem out_apply (v57 : Vec Ideal S512x1024 .f32) (v58 : Vec Ideal S1x1024 .f32) (p : Fin 512) (q : Fin 1024) :
    k0_pay2 (F := Ideal) v57 v58 (ix2 p q) = v57 (ix2 p q) + v58 (ix2 0 q) := by
  unfold k0_pay2
  rw [addf_apply, broadcastTo_1b_ab_apply, shapeCast_self]

end Cert.Qalora.Block

end
-- ==== Proof.KCases.lean ====
/-
  What each of the body's three control cases leaves behind, as values.

  The grid's third coordinate k runs over the eight blocks of the inner axis. At k = 0 (case A) the body first
  stores zero over the whole accumulator and then adds the point's product to it; at 0 < k < 7 (case B) it adds the
  point's product to what the point before left; at k = 7 (case C) it does the same and then stores the accumulator
  plus the bias piece over the whole output block. Each store covers its whole buffer, so what a buffer holds after
  the body is the value of the last store into it, with every load read back from the buffer it came from.
-/
import proofs.«150886_j67843303408244_1_alg».proof.Proof.Gen.KernelIdeal.Frame
import Idealize.ShloMosaic.Lib.Pipeline.Value
import Idealize.ShloMosaic.Lib.Tactic

noncomputable section

namespace Cert.Qalora.Cases

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- Case B: the accumulator ends at the point's update of what it held. -/
theorem scratch_B (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (hc0 : ¬cond0_0 i) (hc1 : ¬cond0_1 i)
    (x0 : Vec F S512x512 .f32) (x1 : Vec F S1024x512 .f32) (x2 : Vec F S16x512 .f32) (x3 : Vec F S1024x16 .f32) (x4 : Vec F S1024x1 .f32) (x5 : Vec F S1x1 .f32) (x6 : Vec F S1x1024 .f32) (xs0 : Vec F S512x1024 .f32) :
    sout0_B_0 c i arg3 harg3 arg4 harg4 arg5 harg5 arg6 harg6 arg7 harg7 arg8 harg8 arg9 harg9 arg10 harg10 arg11 harg11 hc0 hc1 x0 x1 x2 x3 x4 x5 x6 xs0 = k0_pay1 (k0_pay4 x5) (k0_pay5 x3 x2 x1 x4) (k0_pay6 x0) (k0_pay7 x5) xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S512x1024) hz, View.ld_unit_zero (S := S512x512) hz,
    View.ld_unit_zero (S := S1024x512) hz, View.ld_unit_zero (S := S16x512) hz, View.ld_unit_zero (S := S1024x16) hz,
    View.ld_unit_zero (S := S1024x1) hz, View.ld_unit_zero (S := S1x1) hz, View.ld_unit_zero (S := S1x1024) hz]

/-- Case C: the accumulator ends at the point's update of what it held, -/
theorem scratch_C (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (hc0 : ¬cond0_0 i) (hc1 : cond0_1 i)
    (x0 : Vec F S512x512 .f32) (x1 : Vec F S1024x512 .f32) (x2 : Vec F S16x512 .f32) (x3 : Vec F S1024x16 .f32) (x4 : Vec F S1024x1 .f32) (x5 : Vec F S1x1 .f32) (x6 : Vec F S1x1024 .f32) (xs0 : Vec F S512x1024 .f32) :
    sout0_C_0 c i arg3 harg3 arg4 harg4 arg5 harg5 arg6 harg6 arg7 harg7 arg8 harg8 arg9 harg9 arg10 harg10 arg11 harg11 hc0 hc1 x0 x1 x2 x3 x4 x5 x6 xs0 = k0_pay1 (k0_pay4 x5) (k0_pay5 x3 x2 x1 x4) (k0_pay6 x0) (k0_pay7 x5) xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S512x1024) hz, View.ld_unit_zero (S := S512x512) hz,
    View.ld_unit_zero (S := S1024x512) hz, View.ld_unit_zero (S := S16x512) hz, View.ld_unit_zero (S := S1024x16) hz,
    View.ld_unit_zero (S := S1024x1) hz, View.ld_unit_zero (S := S1x1) hz, View.ld_unit_zero (S := S1x1024) hz]

/-- and the output block at that accumulator plus the bias piece. -/
theorem out_C (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (hc0 : ¬cond0_0 i) (hc1 : cond0_1 i)
    (x0 : Vec F S512x512 .f32) (x1 : Vec F S1024x512 .f32) (x2 : Vec F S16x512 .f32) (x3 : Vec F S1024x16 .f32) (x4 : Vec F S1024x1 .f32) (x5 : Vec F S1x1 .f32) (x6 : Vec F S1x1024 .f32) (xs0 : Vec F S512x1024 .f32) :
    out0_C_7 c i arg3 harg3 arg4 harg4 arg5 harg5 arg6 harg6 arg7 harg7 arg8 harg8 arg9 harg9 arg10 harg10 arg11 harg11 hc0 hc1 x0 x1 x2 x3 x4 x5 x6 xs0 = k0_pay2 (k0_pay1 (k0_pay4 x5) (k0_pay5 x3 x2 x1 x4) (k0_pay6 x0) (k0_pay7 x5) xs0) x6 := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S512x1024) hz, View.ld_unit_zero (S := S512x512) hz,
    View.ld_unit_zero (S := S1024x512) hz, View.ld_unit_zero (S := S16x512) hz, View.ld_unit_zero (S := S1024x16) hz,
    View.ld_unit_zero (S := S1024x1) hz, View.ld_unit_zero (S := S1x1) hz, View.ld_unit_zero (S := S1x1024) hz,
    View.readCov_unit_zero (S := S512x1024) _ hz]

/-- Case A: the accumulator ends at the point's update of zero. -/
theorem scratch_A (c : Dev nD) (i : grid0.Coords) (arg3 : Memref sig .tc .vmem S512x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1024x1 .f32) (harg7 : arg7.IsWhole) (arg8 : Memref sig .tc .vmem S1x1 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (hc0 : cond0_0 i) (hc1 : ¬cond0_1 i)
    (x0 : Vec F S512x512 .f32) (x1 : Vec F S1024x512 .f32) (x2 : Vec F S16x512 .f32) (x3 : Vec F S1024x16 .f32) (x4 : Vec F S1024x1 .f32) (x5 : Vec F S1x1 .f32) (x6 : Vec F S1x1024 .f32) :
    sout0_A_0 c i arg3 harg3 arg4 harg4 arg5 harg5 arg6 harg6 arg7 harg7 arg8 harg8 arg9 harg9 arg10 harg10 arg11 harg11 hc0 hc1 x0 x1 x2 x3 x4 x5 x6 = k0_pay1 (k0_pay4 x5) (k0_pay5 x3 x2 x1 x4) (k0_pay6 x0) (k0_pay7 x5) (k0_pay3 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S512x1024) hz, View.readCov_unit_zero (S := S512x1024) _ hz]
  simp only [View.readAt_eq_ld, harg3.read_unread, harg4.read_unread, harg5.read_unread, harg6.read_unread, harg7.read_unread, harg8.read_unread, harg9.read_unread, harg10.read_unread, harg11.read_unread, View.ld_unit_zero (S := S512x1024) hz, View.ld_unit_zero (S := S512x512) hz,
    View.ld_unit_zero (S := S1024x512) hz, View.ld_unit_zero (S := S16x512) hz, View.ld_unit_zero (S := S1024x16) hz,
    View.ld_unit_zero (S := S1024x1) hz, View.ld_unit_zero (S := S1x1) hz, View.ld_unit_zero (S := S1x1024) hz]

end Cert.Qalora.Cases

end
-- ==== Proof.KInputs.lean ====
/-
  The blocks a grid point reads, as entries of the arrays the region finds.

  The grid has 16 x 4 x 8 points, the last coordinate fastest, so point t has coordinates (t / 32, t / 8 mod 4,
  t mod 8) = (i, j, k). At that point the activations' window holds rows 512 i .. 512 i + 511 and inner positions
  512 k .. 512 k + 511 of the 8192 x 4096 view of the activations; the weight's window rows 1024 j .. and the same
  inner positions; A's window all 16 rows and those inner positions; B's window rows 1024 j .. and all 16 columns; the
  step-size column rows 1024 j ..; the activation step size its one entry; the bias columns 1024 j ... The blocks
  tile their arrays, so a block's entry (a, b) is the array's entry (index_0 * size_0 + a, index_1 * size_1 + b).

  Before the region the host only re-views four arguments: the activations as 8192 rows (row 2048 b + s is (b, s)),
  the step sizes as a column, the activation step size as a 1 x 1 matrix, the bias as a row.

  Last, the three control cases' values are restated at a grid point over these named blocks.
-/
import proofs.«150886_j67843303408244_1_alg».proof.Proof.LibLayout
import proofs.«150886_j67843303408244_1_alg».proof.Proof.KCases
import proofs.«150886_j67843303408244_1_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.Lib.Tactic

noncomputable section

namespace Cert.Qalora.Inputs

open Idealize.ShloMosaic Idealize.ShloMosaic.TcCoe Idealize.ShloMosaic.ValueIdx Idealize.SL.Sem
open Cert.KernelIdeal Cert.KernelIdeal.Gen Cert.LibLayout Cert.Qalora.Cases

variable {F : FTy → Type} [FloatOps F]
variable (m : (ℓ : Loc nD τ sig) → Buf (Elt F) ℓ)

/-! ## Names of literal type for the blocks and the arrays -/

abbrev blkX (c : Dev nD) (t : Fin cfg0.N) : Vec F S512x512 .f32 := iblk m c 0 t
abbrev blkW (c : Dev nD) (t : Fin cfg0.N) : Vec F S1024x512 .f32 := iblk m c 1 t
abbrev blkA (c : Dev nD) (t : Fin cfg0.N) : Vec F S16x512 .f32 := iblk m c 2 t
abbrev blkB (c : Dev nD) (t : Fin cfg0.N) : Vec F S1024x16 .f32 := iblk m c 3 t
abbrev blkS (c : Dev nD) (t : Fin cfg0.N) : Vec F S1024x1 .f32 := iblk m c 4 t
abbrev blkT (c : Dev nD) (t : Fin cfg0.N) : Vec F S1x1 .f32 := iblk m c 5 t
abbrev blkBias (c : Dev nD) (t : Fin cfg0.N) : Vec F S1x1024 .f32 := iblk m c 6 t

abbrev arrX (c : Dev nD) : Vec F S8192x4096 .f32 := V m c main_v0
abbrev arrW (c : Dev nD) : Vec F S4096x4096 .f32 := V m c main_arg1
abbrev arrA (c : Dev nD) : Vec F S16x4096 .f32 := V m c main_arg2
abbrev arrB (c : Dev nD) : Vec F S4096x16 .f32 := V m c main_arg3
abbrev arrS (c : Dev nD) : Vec F S4096x1 .f32 := V m c main_v1
abbrev arrT (c : Dev nD) : Vec F S1x1 .f32 := V m c main_v2
abbrev arrBias (c : Dev nD) : Vec F S1x4096 .f32 := V m c main_v3

/-! ## The index maps, decided over the grid -/

theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val % 8
    ∧ win0_3.index t (0 : Fin 2) = t.val / 8 % 4 ∧ win0_3.index t (1 : Fin 2) = 0
    ∧ win0_4.index t (0 : Fin 2) = t.val / 8 % 4 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val / 8 % 4
    ∧ win0_7.index t (0 : Fin 2) = t.val / 32 ∧ win0_7.index t (1 : Fin 2) = t.val / 8 % 4 :=
  (by decide +kernel : ∀ t : Fin grid0.N, _)

/-! ## A block's entry is an entry of its array -/

theorem blkX_apply (c : Dev nD) (t : Fin cfg0.N) (p j : Fin 512) (r : Fin 8192) (i : Fin 4096)
    (hr : r.val = t.val / 32 * 512 + p.val) (hi : i.val = t.val % 8 * 512 + j.val) :
    blkX m c t (ix2 p j) = arrX m c (ix2 r i) := by
  obtain ⟨e00, e01, e10, e11, e20, e21, e30, e31, e40, e41, e50, e51, e60, e61, e70, e71⟩ := idx_facts t
  show iblk m c 0 t (ix2 p j) = V m c main_v0 (ix2 r i)
  unfold iblk
  rw [View.read_apply]
  show V m c main_v0 _ = V m c main_v0 _
  congr 1
  funext a; apply Fin.ext
  match a with
  | ⟨0, _⟩ => show win0_0.index t (0 : Fin 2) * 512 + 1 * p.val = r.val; omega
  | ⟨1, _⟩ => show win0_0.index t (1 : Fin 2) * 512 + 1 * j.val = i.val; omega

theorem blkW_apply (c : Dev nD) (t : Fin cfg0.N) (q : Fin 1024) (j : Fin 512) (o i : Fin 4096)
    (ho : o.val = t.val / 8 % 4 * 1024 + q.val) (hi : i.val = t.val % 8 * 512 + j.val) :
    blkW m c t (ix2 q j) = arrW m c (ix2 o i) := by
  obtain ⟨e00, e01, e10, e11, e20, e21, e30, e31, e40, e41, e50, e51, e60, e61, e70, e71⟩ := idx_facts t
  show iblk m c 1 t (ix2 q j) = V m c main_arg1 (ix2 o i)
  unfold iblk
  rw [View.read_apply]
  show V m c main_arg1 _ = V m c main_arg1 _
  congr 1
  funext a; apply Fin.ext
  match a with
  | ⟨0, _⟩ => show win0_1.index t (0 : Fin 2) * 1024 + 1 * q.val = o.val; omega
  | ⟨1, _⟩ => show win0_1.index t (1 : Fin 2) * 512 + 1 * j.val = i.val; omega

theorem blkA_apply (c : Dev nD) (t : Fin cfg0.N) (k : Fin 16) (j : Fin 512) (i : Fin 4096)
    (hi : i.val = t.val % 8 * 512 + j.val) : blkA m c t (ix2 k j) = arrA m c (ix2 k i) := by
  obtain ⟨e00, e01, e10, e11, e20, e21, e30, e31, e40, e41, e50, e51, e60, e61, e70, e71⟩ := idx_facts t
  show iblk m c 2 t (ix2 k j) = V m c main_arg2 (ix2 k i)
  unfold iblk
  rw [View.read_apply]
  show V m c main_arg2 _ = V m c main_arg2 _
  congr 1
  funext a; apply Fin.ext
  match a with
  | ⟨0, _⟩ => show win0_2.index t (0 : Fin 2) * 16 + 1 * k.val = k.val; omega
  | ⟨1, _⟩ => show win0_2.index t (1 : Fin 2) * 512 + 1 * j.val = i.val; omega

theorem blkB_apply (c : Dev nD) (t : Fin cfg0.N) (q : Fin 1024) (k : Fin 16) (o : Fin 4096)
    (ho : o.val = t.val / 8 % 4 * 1024 + q.val) : blkB m c t (ix2 q k) = arrB m c (ix2 o k) := by
  obtain ⟨e00, e01, e10, e11, e20, e21, e30, e31, e40, e41, e50, e51, e60, e61, e70, e71⟩ := idx_facts t
  show iblk m c 3 t (ix2 q k) = V m c main_arg3 (ix2 o k)
  unfold iblk
  rw [View.read_apply]
  show V m c main_arg3 _ = V m c main_arg3 _
  congr 1
  funext a; apply Fin.ext
  match a with
  | ⟨0, _⟩ => show win0_3.index t (0 : Fin 2) * 1024 + 1 * q.val = o.val; omega
  | ⟨1, _⟩ => show win0_3.index t (1 : Fin 2) * 16 + 1 * k.val = k.val; omega

theorem blkS_apply (c : Dev nD) (t : Fin cfg0.N) (q : Fin 1024) (u : Fin 1) (o : Fin 4096)
    (ho : o.val = t.val / 8 % 4 * 1024 + q.val) : blkS m c t (ix2 q u) = arrS m c (ix2 o u) := by
  obtain ⟨e00, e01, e10, e11, e20, e21, e30, e31, e40, e41, e50, e51, e60, e61, e70, e71⟩ := idx_facts t
  show iblk m c 4 t (ix2 q u) = V m c main_v1 (ix2 o u)
  unfold iblk
  rw [View.read_apply]
  show V m c main_v1 _ = V m c main_v1 _
  congr 1
  funext a; apply Fin.ext
  match a with
  | ⟨0, _⟩ => show win0_4.index t (0 : Fin 2) * 1024 + 1 * q.val = o.val; omega
  | ⟨1, _⟩ => show win0_4.index t (1 : Fin 2) * 1 + 1 * u.val = u.val; omega

theorem blkT_apply (c : Dev nD) (t : Fin cfg0.N) (u v : Fin 1) : blkT m c t (ix2 u v) = arrT m c (ix2 u v) := by
  obtain ⟨e00, e01, e10, e11, e20, e21, e30, e31, e40, e41, e50, e51, e60, e61, e70, e71⟩ := idx_facts t
  show iblk m c 5 t (ix2 u v) = V m c main_v2 (ix2 u v)
  unfold iblk
  rw [View.read_apply]
  show V m c main_v2 _ = V m c main_v2 _
  congr 1
  funext a; apply Fin.ext
  match a with
  | ⟨0, _⟩ => show win0_5.index t (0 : Fin 2) * 1 + 1 * u.val = u.val; omega
  | ⟨1, _⟩ => show win0_5.index t (1 : Fin 2) * 1 + 1 * v.val = v.val; omega

theorem blkBias_apply (c : Dev nD) (t : Fin cfg0.N) (u : Fin 1) (q : Fin 1024) (o : Fin 4096)
    (ho : o.val = t.val / 8 % 4 * 1024 + q.val) : blkBias m c t (ix2 u q) = arrBias m c (ix2 u o) := by
  obtain ⟨e00, e01, e10, e11, e20, e21, e30, e31, e40, e41, e50, e51, e60, e61, e70, e71⟩ := idx_facts t
  show iblk m c 6 t (ix2 u q) = V m c main_v3 (ix2 u o)
  unfold iblk
  rw [View.read_apply]
  show V m c main_v3 _ = V m c main_v3 _
  congr 1
  funext a; apply Fin.ext
  match a with
  | ⟨0, _⟩ => show win0_6.index t (0 : Fin 2) * 1 + 1 * u.val = u.val; omega
  | ⟨1, _⟩ => show win0_6.index t (1 : Fin 2) * 1024 + 1 * q.val = o.val; omega

/-! ## The arrays the host re-viewed before the region -/

theorem arrX_eq (c : Dev nD) :
    arrX m c = shapeCast S8192x4096 (m ((c : Thread nD τ).loc main_arg0)) shapeCasts_S4x2048x4096_S8192x4096 := by
  show StableHlo.after hostOps0 (fun b => m (c, b)) (Proc.devRef .tc main_v0) = _
  after_results
  rfl

theorem arrS_eq (c : Dev nD) :
    arrS m c = shapeCast S4096x1 (m ((c : Thread nD τ).loc main_arg4)) shapeCasts_S4096_S4096x1 := by
  show StableHlo.after hostOps0 (fun b => m (c, b)) (Proc.devRef .tc main_v1) = _
  after_results
  rfl

theorem arrT_eq (c : Dev nD) :
    arrT m c = shapeCast S1x1 (m ((c : Thread nD τ).loc main_arg5)) shapeCasts_S1_S1x1 := by
  show StableHlo.after hostOps0 (fun b => m (c, b)) (Proc.devRef .tc main_v2) = _
  after_results
  rfl

theorem arrBias_eq (c : Dev nD) :
    arrBias m c = shapeCast S1x4096 (m ((c : Thread nD τ).loc main_arg6)) shapeCasts_S4096_S1x4096 := by
  show StableHlo.after hostOps0 (fun b => m (c, b)) (Proc.devRef .tc main_v3) = _
  after_results
  rfl

/-- Row r = 2048 b + s of the 8192-row view is (b, s) of the activations. -/
theorem arrX_apply (c : Dev nD) (b : Fin 4) (s : Fin 2048) (i : Fin 4096) (r : Fin 8192)
    (hr : r.val = b.val * 2048 + s.val) :
    arrX m c (ix2 r i) = m ((c : Thread nD τ).loc main_arg0) (ix3 b s i) := by
  rw [arrX_eq]
  exact shapeCast_abc_nc_apply _ _ b s i r hr

theorem arrW_eq (c : Dev nD) : arrW m c = m ((c : Thread nD τ).loc main_arg1) := V_main_arg1 m c
theorem arrA_eq (c : Dev nD) : arrA m c = m ((c : Thread nD τ).loc main_arg2) := V_main_arg2 m c
theorem arrB_eq (c : Dev nD) : arrB m c = m ((c : Thread nD τ).loc main_arg3) := V_main_arg3 m c

theorem arrS_apply (c : Dev nD) (o : Fin 4096) (u : Fin 1) :
    arrS m c (ix2 o u) = m ((c : Thread nD τ).loc main_arg4) (ix1 o) := by
  rw [arrS_eq]
  exact shapeCast_a_a1_apply _ _ o u

theorem arrT_apply (c : Dev nD) (u v : Fin 1) :
    arrT m c (ix2 u v) = m ((c : Thread nD τ).loc main_arg5) (ix1 v) := by
  rw [arrT_eq]
  exact shapeCast_a_1a_apply _ _ u v

theorem arrBias_apply (c : Dev nD) (u : Fin 1) (o : Fin 4096) :
    arrBias m c (ix2 u o) = m ((c : Thread nD τ).loc main_arg6) (ix1 o) := by
  rw [arrBias_eq]
  exact shapeCast_a_1a_apply _ _ u o

/-! ## The three cases at a grid point, over the named blocks -/

/-- At the first point of a group the accumulator ends at the point's update of zero. -/
theorem scratchAt_A (c : Dev nD) (t : Fin cfg0.N) (h0 : t.val % 8 = 0) (h7 : ¬t.val % 8 = 7) :
    (outsAt0 m c t.val t.isLt).2 = k0_pay1 (k0_pay4 (blkT m c t)) (k0_pay5 (blkB m c t) (blkA m c t) (blkW m c t) (blkS m c t)) (k0_pay6 (blkX m c t)) (k0_pay7 (blkT m c t)) (k0_pay3 (F := F)) := by
  rw [outsAt0_A m c t h0 h7]
  dsimp only
  exact scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h7 ((hcond0_1 t).mp h)) (blkX m c t) (blkW m c t) (blkA m c t) (blkB m c t) (blkS m c t) (blkT m c t) (blkBias m c t)

/-- At a middle point it ends at the point's update of what the point before left. -/
theorem scratchAt_B (c : Dev nD) (t : Fin cfg0.N) (h0 : ¬t.val % 8 = 0) (h7 : ¬t.val % 8 = 7) :
    (outsAt0 m c t.val t.isLt).2 = k0_pay1 (k0_pay4 (blkT m c t)) (k0_pay5 (blkB m c t) (blkA m c t) (blkW m c t) (blkS m c t)) (k0_pay6 (blkX m c t)) (k0_pay7 (blkT m c t)) (outsAt0 m c (t.val - 1) (Nat.lt_of_le_of_lt (Nat.sub_le _ _) t.isLt)).2 := by
  rw [outsAt0_B m c t h0 h7]
  dsimp only
  exact scratch_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h7 ((hcond0_1 t).mp h)) (blkX m c t) (blkW m c t) (blkA m c t) (blkB m c t) (blkS m c t) (blkT m c t) (blkBias m c t) _

/-- At the last point of a group likewise, -/
theorem scratchAt_C (c : Dev nD) (t : Fin cfg0.N) (h0 : ¬t.val % 8 = 0) (h7 : t.val % 8 = 7) :
    (outsAt0 m c t.val t.isLt).2 = k0_pay1 (k0_pay4 (blkT m c t)) (k0_pay5 (blkB m c t) (blkA m c t) (blkW m c t) (blkS m c t)) (k0_pay6 (blkX m c t)) (k0_pay7 (blkT m c t)) (outsAt0 m c (t.val - 1) (Nat.lt_of_le_of_lt (Nat.sub_le _ _) t.isLt)).2 := by
  rw [outsAt0_C m c t h0 h7]
  dsimp only
  exact scratch_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h7) (blkX m c t) (blkW m c t) (blkA m c t) (blkB m c t) (blkS m c t) (blkT m c t) (blkBias m c t) _

/-- and the output block is that accumulator plus the bias piece. -/
theorem outAt_C (c : Dev nD) (t : Fin cfg0.N) (h0 : ¬t.val % 8 = 0) (h7 : t.val % 8 = 7) :
    (outsAt0 m c t.val t.isLt).1 = k0_pay2 ((outsAt0 m c t.val t.isLt).2) (blkBias m c t) := by
  rw [scratchAt_C m c t h0 h7, outsAt0_C m c t h0 h7]
  dsimp only
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h7) (blkX m c t) (blkW m c t) (blkA m c t) (blkB m c t) (blkS m c t) (blkT m c t) (blkBias m c t) _

end Cert.Qalora.Inputs

end
-- ==== Proof.KValue.lean ====
/-
  What the kernel program computes, at the extended reals.

  Fix a group of eight consecutive grid points (i, j, 0..7): they share the output block (i, j) and the
  accumulator. By induction on the point, after point (i, j, k) the accumulator's entry (p, q) is the sum over the
  blocks 0..k of the inner axis of
      sum_{l < 512} xq[512 i + p, 512 k' + l] * wq[1024 j + q, 512 k' + l],
  where xq and wq are the quantised activations and the quantised adapted weight of QuantSpec read off the argument
  arrays: the first point of the group starts from zero, every other point adds its block to what the point before
  left. The last point of the group writes the accumulator plus the bias into output block (i, j), and that is
  the only point that writes the block back; the 64 blocks tile the 8192 x 4096 result of the region. The host then
  views that array as 4 x 2048 x 4096. Regrouping the eight block sums into one sum over the 4096 inner positions
  gives the layer of QuantSpec.
-/
import proofs.«150886_j67843303408244_1_alg».proof.Proof.QuantSpec
import proofs.«150886_j67843303408244_1_alg».proof.Proof.LibLayout
import proofs.«150886_j67843303408244_1_alg».proof.Proof.KBlock
import proofs.«150886_j67843303408244_1_alg».proof.Proof.KInputs
import proofs.«150886_j67843303408244_1_alg».proof.Proof.Gen.KernelIdeal.Frame
import Idealize.ShloMosaic.Lib.ValueIdx
import Idealize.ShloMosaic.Lib.Pipeline.Value
import Idealize.ShloMosaic.Lib.StableHlo.Run
import Idealize.ShloMosaic.Lib.Tactic

noncomputable section

open scoped BigOperators

namespace Cert.Qalora.Kernel

open Idealize.ShloMosaic Idealize.ShloMosaic.TcCoe Idealize.ShloMosaic.ValueIdx Idealize.SL.Sem
open Idealize.ShloMosaic.Pipeline (Dat)
open Cert.KernelIdeal Cert.KernelIdeal.Gen Cert.Qalora Cert.Qalora.Inputs Cert.Qalora.Block Cert.LibLayout

variable (m : (ℓ : Loc nD τ sig) → Buf (Elt Ideal) ℓ) (ρ : Dev nD → PrngReg)

/-! ## The argument arrays of a core, and one block's contribution to an entry -/

abbrev aX (c : Dev nD) : ShX.Idx → EReal := m ((c : Thread nD τ).loc main_arg0)
abbrev aW (c : Dev nD) : ShW.Idx → EReal := m ((c : Thread nD τ).loc main_arg1)
abbrev aA (c : Dev nD) : ShA.Idx → EReal := m ((c : Thread nD τ).loc main_arg2)
abbrev aB (c : Dev nD) : ShB.Idx → EReal := m ((c : Thread nD τ).loc main_arg3)
abbrev aS (c : Dev nD) : ShV.Idx → EReal := m ((c : Thread nD τ).loc main_arg4)
abbrev aT (c : Dev nD) : ShS.Idx → EReal := m ((c : Thread nD τ).loc main_arg5)
abbrev aBias (c : Dev nD) : ShV.Idx → EReal := m ((c : Thread nD τ).loc main_arg6)

/-- Row r of the 8192-row view lies in batch r / 2048 ... -/
def rowB (r : Fin 8192) : Fin 4 := ⟨r.val / 2048, by have := r.isLt; omega⟩
/-- ... at position r mod 2048. -/
def rowS (r : Fin 8192) : Fin 2048 := ⟨r.val % 2048, by omega⟩

theorem row_split (r : Fin 8192) : r.val = (rowB r).val * 2048 + (rowS r).val := by
  show r.val = r.val / 2048 * 2048 + r.val % 2048
  omega

/-- Block k of the inner axis' contribution to entry (r, o) of the region's result. -/
def blockTerm (c : Dev nD) (r : Fin 8192) (o : Fin 4096) (k : Fin 8) : EReal :=
  ∑ j : Fin 512, xq (aX m c) (aT m c) (rowB r) (rowS r) (blockPos k j)
    * wq (aW m c) (aA m c) (aB m c) (aS m c) o (blockPos k j)

/-- The product a grid point forms, read off the argument arrays: its block's contribution. -/
theorem point_term (c : Dev nD) (t : Fin cfg0.N) (p : Fin 512) (q : Fin 1024) (r : Fin 8192) (o : Fin 4096)
    (hr : r.val = t.val / 32 * 512 + p.val) (ho : o.val = t.val / 8 % 4 * 1024 + q.val) :
    (∑ j : Fin 512, quant (blkX m c t (ix2 p j)) (step (blkT m c t (ix2 0 0)))
        * quant (blkW m c t (ix2 q j) + lam * ∑ k : Fin 16, blkB m c t (ix2 q k) * blkA m c t (ix2 k j))
            (step (blkS m c t (ix2 q 0))))
      = onNat (blockTerm m c r o) (t.val % 8) := by
  have hk : t.val % 8 < 8 := Nat.mod_lt _ (by decide)
  rw [onNat_of_lt _ _ hk]
  unfold blockTerm
  refine Finset.sum_congr rfl fun j _ => ?_
  have hi : (blockPos ⟨t.val % 8, hk⟩ j).val = t.val % 8 * 512 + j.val := by
    show 512 * (t.val % 8) + j.val = t.val % 8 * 512 + j.val
    omega
  have eX : blkX m c t (ix2 p j) = aX m c (ix3 (rowB r) (rowS r) (blockPos ⟨t.val % 8, hk⟩ j)) :=
    (blkX_apply m c t p j r _ hr hi).trans (arrX_apply m c _ _ _ r (row_split r))
  have eT : blkT m c t (ix2 0 0) = aT m c (ix1 0) := (blkT_apply m c t 0 0).trans (arrT_apply m c 0 0)
  have eW : blkW m c t (ix2 q j) = aW m c (ix2 o (blockPos ⟨t.val % 8, hk⟩ j)) :=
    (blkW_apply m c t q j o _ ho hi).trans (congrFun (arrW_eq m c) _)
  have eS : blkS m c t (ix2 q 0) = aS m c (ix1 o) := (blkS_apply m c t q 0 o ho).trans (arrS_apply m c o 0)
  have eBA : ∀ k : Fin 16, blkB m c t (ix2 q k) * blkA m c t (ix2 k j)
      = aB m c (ix2 o k) * aA m c (ix2 k (blockPos ⟨t.val % 8, hk⟩ j)) := fun k => by
    rw [blkB_apply m c t q k o ho, blkA_apply m c t k j _ hi, congrFun (arrB_eq m c) _, congrFun (arrA_eq m c) _]
  rw [eX, eT, eW, eS, Finset.sum_congr rfl fun k _ => eBA k]
  rfl

/-! ## The accumulator after each point -/

/-- A point that is not the first of its group adds its block to what the point before left. -/
theorem scratch_step (c : Dev nD) (t : Fin cfg0.N) (h0 : ¬t.val % 8 = 0) (p : Fin 512) (q : Fin 1024)
    (r : Fin 8192) (o : Fin 4096) (hr : r.val = t.val / 32 * 512 + p.val) (ho : o.val = t.val / 8 % 4 * 1024 + q.val)
    (S : EReal) (hprev : (outsAt0 m c (t.val - 1) (Nat.lt_of_le_of_lt (Nat.sub_le _ _) t.isLt)).2 (ix2 p q) = S) :
    (outsAt0 m c t.val t.isLt).2 (ix2 p q) = S + onNat (blockTerm m c r o) (t.val % 8) := by
  have key : (outsAt0 m c t.val t.isLt).2 = k0_pay1 (k0_pay4 (blkT m c t)) (k0_pay5 (blkB m c t) (blkA m c t) (blkW m c t) (blkS m c t)) (k0_pay6 (blkX m c t)) (k0_pay7 (blkT m c t)) (outsAt0 m c (t.val - 1) (Nat.lt_of_le_of_lt (Nat.sub_le _ _) t.isLt)).2 := by
    by_cases h7 : t.val % 8 = 7
    · exact scratchAt_C m c t h0 h7
    · exact scratchAt_B m c t h0 h7
  rw [key]
  refine (step_apply (blkX m c t) (blkW m c t) (blkA m c t) (blkB m c t) (blkS m c t) (blkT m c t) _ p q).trans ?_
  rw [hprev, point_term m c t p q r o hr ho]

/-- The first point of a group leaves its own block. -/
theorem scratch_first (c : Dev nD) (t : Fin cfg0.N) (h0 : t.val % 8 = 0) (p : Fin 512) (q : Fin 1024)
    (r : Fin 8192) (o : Fin 4096) (hr : r.val = t.val / 32 * 512 + p.val) (ho : o.val = t.val / 8 % 4 * 1024 + q.val) :
    (outsAt0 m c t.val t.isLt).2 (ix2 p q) = onNat (blockTerm m c r o) (t.val % 8) := by
  rw [scratchAt_A m c t h0 (by omega)]
  refine (step_apply (blkX m c t) (blkW m c t) (blkA m c t) (blkB m c t) (blkS m c t) (blkT m c t) _ p q).trans ?_
  rw [zero_apply, zero_add, point_term m c t p q r o hr ho]

/-- After point n the accumulator's entry (p, q) is the sum of the blocks 0 .. n mod 8 of its group. -/
theorem scratch_value (c : Dev nD) : ∀ (n : ℕ) (hn : n < cfg0.N) (p : Fin 512) (q : Fin 1024) (r : Fin 8192) (o : Fin 4096),
    r.val = n / 32 * 512 + p.val → o.val = n / 8 % 4 * 1024 + q.val →
    (outsAt0 m c n hn).2 (ix2 p q) = ∑ k ∈ Finset.range (n % 8 + 1), onNat (blockTerm m c r o) k := by
  intro n
  induction n with
  | zero =>
    intro hn p q r o hr ho
    have h := scratch_first m c ⟨0, hn⟩ rfl p q r o hr ho
    rw [show (0 % 8 + 1) = 1 from rfl, Finset.sum_range_one]
    exact h
  | succ n ih =>
    intro hn p q r o hr ho
    by_cases h0 : (n + 1) % 8 = 0
    · have h := scratch_first m c ⟨n + 1, hn⟩ h0 p q r o hr ho
      rw [h0, Finset.sum_range_one]
      rw [show ((⟨n + 1, hn⟩ : Fin cfg0.N).val % 8) = 0 from h0] at h
      exact h
    · have hn' : n < cfg0.N := Nat.lt_of_succ_lt hn
      have hr' : r.val = n / 32 * 512 + p.val := by omega
      have ho' : o.val = n / 8 % 4 * 1024 + q.val := by omega
      have hp := ih hn' p q r o hr' ho'
      have h := scratch_step m c ⟨n + 1, hn⟩ h0 p q r o hr ho _ hp
      rw [show (n + 1) % 8 + 1 = (n % 8 + 1) + 1 from by omega, Finset.sum_range_succ]
      rw [show ((⟨n + 1, hn⟩ : Fin cfg0.N).val % 8) = n % 8 + 1 from by show (n + 1) % 8 = n % 8 + 1; omega] at h
      exact h

/-! ## The region's result array -/

/-- The array the region leaves: every entry the sum of its eight blocks plus the bias of its column. -/
def regionOut (c : Dev nD) : Buf (Elt Ideal) ((c : Thread nD τ).loc main_v4) :=
  fun i => (∑ k : Fin 8, blockTerm m c (i 0) (i 1) k) + aBias m c (ix1 (i 1))

/-- The output block the last point of a group leaves, entry by entry. -/
theorem out_value (c : Dev nD) (t : Fin cfg0.N) (h7 : t.val % 8 = 7) (p : Fin 512) (q : Fin 1024)
    (r : Fin 8192) (o : Fin 4096) (hr : r.val = t.val / 32 * 512 + p.val) (ho : o.val = t.val / 8 % 4 * 1024 + q.val) :
    (outsAt0 m c t.val t.isLt).1 (ix2 p q) = regionOut m c (ix2 r o) := by
  rw [outAt_C m c t (by omega) h7]
  refine (out_apply _ _ p q).trans ?_
  rw [scratch_value m c t.val t.isLt p q r o hr ho, h7, sum_range_eight,
    blkBias_apply m c t 0 q o ho, arrBias_apply m c 0 o]
  rfl

/-- The same at an index of the block given whole. -/
theorem out_value_idx (c : Dev nD) (t : Fin cfg0.N) (h7 : t.val % 8 = 7) (y : S512x1024.Idx)
    (r : Fin 8192) (o : Fin 4096) (hr : r.val = t.val / 32 * 512 + (y 0).val) (ho : o.val = t.val / 8 % 4 * 1024 + (y 1).val) :
    (outsAt0 m c t.val t.isLt).1 y = regionOut m c (ix2 r o) := by
  obtain ⟨p, q, rfl⟩ : ∃ (p : Fin 512) (q : Fin 1024), y = ix2 p q := ⟨y 0, y 1, eq_ix2 y⟩
  exact out_value m c t h7 p q r o hr ho

/-- What a group's last point writes back is its block of the region's result. -/
theorem flushed_eq (c : Dev nD) (t : Fin cfg0.N) (hf : (cfg0.win 7).flush t = true) :
    (dats m 0 c).flushed 7 t = ((cfg0.win 7).blk t).view.read (Elt Ideal) (regionOut m c) := by
  have h7 : t.val % 8 = 7 := (flush0_7 t).mp hf
  have hN : t.val < 512 := lt_of_lt_of_eq t.isLt (show cfg0.N = 512 from N_0)
  obtain ⟨e00, e01, e10, e11, e20, e21, e30, e31, e40, e41, e50, e51, e60, e61, e70, e71⟩ := idx_facts t
  show (cfg0.win 7).cut (grid0.coords t) ((dats m 0 c).after 7 t) = _
  rw [after0_7]
  funext y
  have hy0 : (y 0).val < 512 := (y 0).isLt
  have hy1 : (y 1).val < 1024 := (y 1).isLt
  show (outsAt0 m c t.val t.isLt).1 y = regionOut m c (((cfg0.win 7).blk t).view.emb y)
  refine (out_value_idx m c t h7 y ⟨t.val / 32 * 512 + (y 0).val, by omega⟩
    ⟨t.val / 8 % 4 * 1024 + (y 1).val, by omega⟩ rfl rfl).trans ?_
  congr 1
  funext a; apply Fin.ext
  match a with
  | ⟨0, _⟩ => show t.val / 32 * 512 + (y 0).val = win0_7.index t (0 : Fin 2) * 512 + 1 * (y 0).val; omega
  | ⟨1, _⟩ => show t.val / 8 % 4 * 1024 + (y 1).val = win0_7.index t (1 : Fin 2) * 1024 + 1 * (y 1).val; omega

/-- An entry lies in point t's output block iff each coordinate lies in the block's range. -/
theorem mem_blk (t : Fin cfg0.N) (i : S8192x4096.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v4).slice (win0_7.rect t)).set ↔ _
  rw [View.set_slice_whole, Rect.mem_set_unit]
  exact Iff.rfl

/-- Every entry of the result lies in the output block of its group's last point. -/
theorem covered (i : S8192x4096.Idx) :
    ∃ t : Fin cfg0.N, (cfg0.win 7).flush t = true ∧ i ∈ ((cfg0.win 7).blk t).view.set := by
  have hi0 : (i 0).val < 8192 := (i 0).isLt
  have hi1 : (i 1).val < 4096 := (i 1).isLt
  have hN : cfg0.N = 512 := N_0
  have hlt : (i 0).val / 512 * 32 + (i 1).val / 1024 * 8 + 7 < cfg0.N := by rw [hN]; omega
  obtain ⟨t, ht⟩ : ∃ t : Fin cfg0.N, t.val = (i 0).val / 512 * 32 + (i 1).val / 1024 * 8 + 7 := ⟨⟨_, hlt⟩, rfl⟩
  obtain ⟨e00, e01, e10, e11, e20, e21, e30, e31, e40, e41, e50, e51, e60, e61, e70, e71⟩ := idx_facts t
  refine ⟨t, (flush0_7 t).mpr (by omega), ?_⟩
  rw [mem_blk]
  intro a
  match a with
  | ⟨0, _⟩ =>
    show win0_7.index t (0 : Fin 2) * 512 ≤ (i 0).val ∧ (i 0).val < win0_7.index t (0 : Fin 2) * 512 + 512
    omega
  | ⟨1, _⟩ =>
    show win0_7.index t (1 : Fin 2) * 1024 ≤ (i 1).val ∧ (i 1).val < win0_7.index t (1 : Fin 2) * 1024 + 1024
    omega

/-- After the region its result array holds regionOut. -/
theorem after_region (c : Dev nD) : (dats m 0 c).arrAt 7 cfg0.N = regionOut m c :=
  (dats m 0 c).arrAt_eq_of_cover 7 (regionOut m c) (flushed_eq m c) covered

/-! ## The host's view of the result, and the layer -/

/-- The program's result: the region's array viewed as 4 x 2048 x 4096. -/
theorem tail_value (c : Dev nD) :
    Pipeline.afterTail₀ cfgs (dats m) 0 (V0 m) [hostOps1] c main_v5
      = shapeCast S4x2048x4096 (regionOut m c) shapeCasts_S8192x4096_S4x2048x4096 := by
  unfold Pipeline.afterTail₀
  show StableHlo.after hostOps1 _ (Proc.devRef .tc main_v5) = _
  after_results
  rw [(Pipeline.withArrays_arr spec0 launch0.win.arr_inj c _ _ 7).trans (after_region m c)]
  rfl

/-- That view is the layer of the argument arrays. -/
theorem result_eq_layer (c : Dev nD) :
    shapeCast S4x2048x4096 (regionOut m c) shapeCasts_S8192x4096_S4x2048x4096
      = layer (aX m c) (aW m c) (aA m c) (aB m c) (aS m c) (aT m c) (aBias m c) := by
  funext j
  obtain ⟨b, s, o, rfl⟩ : ∃ (b : Fin 4) (s : Fin 2048) (o : Fin 4096), j = ix3 b s o := ⟨j 0, j 1, j 2, eq_ix3 j⟩
  have hb : b.val < 4 := b.isLt
  have hs : s.val < 2048 := s.isLt
  rw [shapeCast_nc_abc_apply (regionOut m c) _ b s o ⟨b.val * 2048 + s.val, by omega⟩ rfl]
  show (∑ k : Fin 8, blockTerm m c ⟨b.val * 2048 + s.val, by omega⟩ o k) + aBias m c (ix1 o) = layerAt _ _ _ _ _ _ _ b s o
  unfold layerAt
  rw [sum_by_blocks]
  have eB : rowB ⟨b.val * 2048 + s.val, by omega⟩ = b := Fin.ext (by show (b.val * 2048 + s.val) / 2048 = b.val; omega)
  have eS : rowS ⟨b.val * 2048 + s.val, by omega⟩ = s := Fin.ext (by show (b.val * 2048 + s.val) % 2048 = s.val; omega)
  unfold blockTerm
  rw [eB, eS]

/-! ## The run, read -/

/-- Every weakly fair execution of the kernel program ends with its result at the layer of the argument arrays and
    the arguments unchanged. -/
theorem run : θ_run defs (onTc (τ := τ) (main (F := Ideal))) ⟨m, fun _ => 0, ρ⟩ fun r => ∀ c : Dev nD,
      r.2.mem ((c.tc : Thread nD τ).loc main_v5) = layer (aX m c) (aW m c) (aA m c) (aB m c) (aS m c) (aT m c) (aBias m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(((h c).2 main_v5 (Pipeline.mem_restRefs_of main_v5 (by decide) (by decide))).trans (tail_value m c)).trans (result_eq_layer m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.Qalora.Kernel

end
-- ==== Proof.RefLayer.lean ====
/-
  The reference program's result, read entry by entry, is the layer of QuantSpec.

  The reference forms the adapted weight for the whole 4096 x 4096 array at once, divides it by the column of
  step sizes broadcast along the rows, rounds, clips and rescales it; it does the same to the activations with the
  one activation step size broadcast to every entry; it contracts the two over the 4096 inner positions in one
  product and adds the bias broadcast along the first two axes. Read at the entry (b, s, o) each of these stages
  depends on one entry of each operand (or, for the two products, on one row and one column), so the result at
  (b, s, o) is  (sum_i quant X[b,s,i] (step sa) * quant M[o,i] (step ws[o])) + bias[o]  term for term.
-/
import proofs.«150886_j67843303408244_1_alg».proof.Proof.QuantSpec
import proofs.«150886_j67843303408244_1_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.Qalora.Ref

open Idealize.ShloMosaic Idealize.ShloMosaic.ValueIdx Cert.ReferenceIdeal Cert.ReferenceIdeal.Read Cert.Qalora

/-! ## The index functions of the broadcasts and products, on coordinates -/

theorem scale_idx (b : Fin 4) (s : Fin 2048) (i : Fin 4096) :
    idx_main_v17 (idx_main_v18 (ix3 b s i)) = ix1 (0 : Fin 1) :=
  funext fun a => Fin.ext (by match a with | ⟨0, _⟩ => rfl)

theorem scale_idx' (b : Fin 4) (s : Fin 2048) (i : Fin 4096) :
    idx_main_v22 (idx_main_v23 (ix3 b s i)) = ix1 (0 : Fin 1) :=
  funext fun a => Fin.ext (by match a with | ⟨0, _⟩ => rfl)

theorem chan_idx (o i : Fin 4096) : idx_main_v10 (idx_main_v11 (ix2 o i)) = ix1 o :=
  funext fun a => Fin.ext (by match a with | ⟨0, _⟩ => rfl)

theorem chan_idx' (o i : Fin 4096) : idx_main_v10 (idx_main_v15 (ix2 o i)) = ix1 o :=
  funext fun a => Fin.ext (by match a with | ⟨0, _⟩ => rfl)

theorem bias_idx (b : Fin 4) (s : Fin 2048) (o : Fin 4096) :
    idx_main_v26 (idx_main_v27 (ix3 b s o)) = ix1 o :=
  funext fun a => Fin.ext (by match a with | ⟨0, _⟩ => rfl)

theorem lowrank_l (o i : Fin 4096) (r : Fin 16) : lidx_main_v0 (ix2 o i) r = ix2 o r :=
  funext fun a => Fin.ext (by match a with | ⟨0, _⟩ => rfl | ⟨1, _⟩ => rfl)

theorem lowrank_r (o i : Fin 4096) (r : Fin 16) : ridx_main_v0 (ix2 o i) r = ix2 r i :=
  funext fun a => Fin.ext (by match a with | ⟨0, _⟩ => rfl | ⟨1, _⟩ => rfl)

theorem inner_l (b : Fin 4) (s : Fin 2048) (o i : Fin 4096) : lidx_main_v25 (ix3 b s o) i = ix3 b s i :=
  funext fun a => Fin.ext (by match a with | ⟨0, _⟩ => rfl | ⟨1, _⟩ => rfl | ⟨2, _⟩ => rfl)

theorem inner_r (b : Fin 4) (s : Fin 2048) (o i : Fin 4096) : ridx_main_v25 (ix3 b s o) i = ix2 o i :=
  funext fun a => Fin.ext (by match a with | ⟨0, _⟩ => rfl | ⟨1, _⟩ => rfl)

section Stages
variable (X : ShX.Idx → EReal) (W : ShW.Idx → EReal) (A : ShA.Idx → EReal) (B : ShB.Idx → EReal)
  (ws : ShV.Idx → EReal) (sa : ShS.Idx → EReal) (bias : ShV.Idx → EReal)

/-- The activation step size, broadcast to every entry, is step sa. -/
theorem actStep_apply (b : Fin 4) (s : Fin 2048) (i : Fin 4096) :
    val_main_v18 (F := Ideal) sa (ix3 b s i) = step (sa (ix1 0)) := by
  rw [val_main_v18_apply, val_main_v17_apply, scale_idx, val_main_v9_apply, val_main_v7_apply, val_main_v8_apply,
    val_main_cst_1_apply]
  rfl

theorem actStep_apply' (b : Fin 4) (s : Fin 2048) (i : Fin 4096) :
    val_main_v23 (F := Ideal) sa (ix3 b s i) = step (sa (ix1 0)) := by
  rw [val_main_v23_apply, val_main_v22_apply, scale_idx', val_main_v9_apply, val_main_v7_apply, val_main_v8_apply,
    val_main_cst_1_apply]
  rfl

/-- The reference's quantised activations are xq. -/
theorem act_apply (b : Fin 4) (s : Fin 2048) (i : Fin 4096) :
    val_main_v24 (F := Ideal) X sa (ix3 b s i) = xq X sa b s i := by
  rw [val_main_v24_apply, val_main_v21_apply, val_main_call3_v4_apply, val_main_call3_v3_apply, val_main_c_4_apply,
    val_main_call3_v2_apply, val_main_call3_v1_apply, val_main_call3_v0_apply, val_main_c_3_apply,
    val_main_v20_apply, val_main_v19_apply, actStep_apply, actStep_apply']
  rfl

/-- Channel o's step size, broadcast along its row, is step ws[o]. -/
theorem chanStep_apply (o i : Fin 4096) : val_main_v11 (F := Ideal) ws (ix2 o i) = step (ws (ix1 o)) := by
  rw [val_main_v11_apply, val_main_v10_apply, chan_idx, val_main_v6_apply, val_main_v4_apply, val_main_v5_apply,
    val_main_cst_0_apply]
  rfl

theorem chanStep_apply' (o i : Fin 4096) : val_main_v15 (F := Ideal) ws (ix2 o i) = step (ws (ix1 o)) := by
  rw [val_main_v15_apply, val_main_v10_apply, chan_idx', val_main_v6_apply, val_main_v4_apply, val_main_v5_apply,
    val_main_cst_0_apply]
  rfl

/-- The reference's adapted weight is merged. -/
theorem merged_apply (o i : Fin 4096) : val_main_v3 (F := Ideal) W A B (ix2 o i) = merged W A B o i := by
  rw [val_main_v3_apply, val_main_v2_apply, val_main_v1_apply, val_main_cst_apply, val_main_v0_apply]
  simp only [lowrank_l, lowrank_r]
  rfl

/-- The reference's quantised weight is wq. -/
theorem weight_apply (o i : Fin 4096) : val_main_v16 (F := Ideal) W A B ws (ix2 o i) = wq W A B ws o i := by
  rw [val_main_v16_apply, val_main_v14_apply, val_main_call1_v4_apply, val_main_call1_v3_apply, val_main_c_2_apply,
    val_main_call1_v2_apply, val_main_call1_v1_apply, val_main_call1_v0_apply, val_main_c_apply,
    val_main_v13_apply, val_main_v12_apply, merged_apply, chanStep_apply, chanStep_apply']
  rfl

/-- The reference's result array is the layer. -/
theorem result_eq_layer :
    val_main_v28 (F := Ideal) X W A B ws sa bias = layer X W A B ws sa bias := by
  funext j
  obtain ⟨b, s, o, rfl⟩ : ∃ (b : Fin 4) (s : Fin 2048) (o : Fin 4096), j = ix3 b s o := ⟨j 0, j 1, j 2, eq_ix3 j⟩
  rw [val_main_v28_apply, val_main_v25_apply, val_main_v27_apply, val_main_v26_apply, bias_idx]
  simp only [inner_l, inner_r, act_apply, weight_apply]
  rfl

end Stages

end Cert.Qalora.Ref

end
-- ==== Proof.lean ====
/-
  A linear layer with a rank-16 adaptation of its weight and sixteen-level fake quantisation of both factors:
      Y[b,s,o] = (sum_{i < 4096} quant X[b,s,i] (step sa) * quant (W[o,i] + lam * sum_r B[o,r] * A[r,i]) (step ws[o])) + bias[o]
  (Proof/QuantSpec.lean has the definitions). The kernel computes it block by block: the 8192 rows of the activations
  are cut into 16 blocks, the 4096 output channels into 4, the 4096 inner positions into 8; each grid point forms its
  weight block's adaptation with the whole rank-16 contraction, quantises both blocks entry by entry, and adds their
  product to an accumulator that starts from zero at the first inner block and receives the bias after the last. The
  reference computes the same entrywise stages on the whole arrays and contracts all 4096 inner positions at once.

  On the extended reals the two differ only in how the inner sum is grouped (zero plus eight block sums against one
  sum), and addition there is commutative and associative without exception, so the results agree entry by entry
  for all inputs; finiteness of the inputs is not used. The idealization rewrote nothing in the kernel, so the fourth
  claim is trivial. The kernel's two frames are the generated ones, the reference's frame is its generated run with
  the result dropped; the kernel's value is read off its frame run in Proof/KValue.lean, the reference's off its run
  in Proof/RefLayer.lean.
-/
import proofs.«150886_j67843303408244_1_alg».proof.Defs
import proofs.«150886_j67843303408244_1_alg».proof.Proof.Gen.Kernel
import proofs.«150886_j67843303408244_1_alg».proof.Proof.Gen.Kernel.Skeleton
import proofs.«150886_j67843303408244_1_alg».proof.Proof.Gen.Kernel.Launch
import proofs.«150886_j67843303408244_1_alg».proof.Proof.Gen.Kernel.Points
import proofs.«150886_j67843303408244_1_alg».proof.Proof.Gen.Kernel.Frame
import proofs.«150886_j67843303408244_1_alg».proof.Proof.Gen.KernelIdeal
import proofs.«150886_j67843303408244_1_alg».proof.Proof.Gen.KernelIdeal.Skeleton
import proofs.«150886_j67843303408244_1_alg».proof.Proof.Gen.KernelIdeal.Launch
import proofs.«150886_j67843303408244_1_alg».proof.Proof.Gen.KernelIdeal.Points
import proofs.«150886_j67843303408244_1_alg».proof.Proof.Gen.KernelIdeal.Frame
import proofs.«150886_j67843303408244_1_alg».proof.Proof.Gen.ReferenceIdeal
import proofs.«150886_j67843303408244_1_alg».proof.Proof.Gen.ReferenceIdeal.Run
import proofs.«150886_j67843303408244_1_alg».proof.Proof.Gen.ReferenceIdeal.Read
import proofs.«150886_j67843303408244_1_alg».proof.Proof.Gen.Pre_finite_inputs
import proofs.«150886_j67843303408244_1_alg».proof.Proof.KValue
import proofs.«150886_j67843303408244_1_alg».proof.Proof.RefLayer
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the layer of the arguments. -/
theorem algebraic : Cert.algebraic_KernelIdeal_ReferenceIdeal := by
  intro m ρ m' ρ' _ hagree
  refine ⟨fun c => Cert.Qalora.layer (Cert.Qalora.Kernel.aX m c) (Cert.Qalora.Kernel.aW m c) (Cert.Qalora.Kernel.aA m c)
    (Cert.Qalora.Kernel.aB m c) (Cert.Qalora.Kernel.aS m c) (Cert.Qalora.Kernel.aT m c) (Cert.Qalora.Kernel.aBias m c),
    Cert.Qalora.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact (Cert.ReferenceIdeal.Read.val_main_v28_eq _ _ _ _ _ _ _).trans (Cert.Qalora.Ref.result_eq_layer _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
